-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S1024x256 : Shape := ⟨2, ![1024, 256]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S1048576 .f32) (main_arg1 : FVec F S1024x256 .f32) : IVec S_ 1 :=
  let main_v0 : FVec F S1048576 .f32 := Host.absf main_arg0
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S1048576 : Shape := ⟨1, ![1048576]⟩
abbrev S1024x256 : Shape := ⟨2, ![1024, 256]⟩
abbrev S4096x256 : Shape := ⟨2, ![4096, 256]⟩
abbrev S4096x256x256 : Shape := ⟨3, ![4096, 256, 256]⟩
abbrev S64x256 : Shape := ⟨2, ![64, 256]⟩
abbrev S64x256x256 : Shape := ⟨3, ![64, 256, 256]⟩
abbrev S1024x1 : Shape := ⟨2, ![1024, 1]⟩
abbrev S1x256 : Shape := ⟨2, ![1, 256]⟩
abbrev S256 : Shape := ⟨1, ![256]⟩
abbrev S256x256 : Shape := ⟨2, ![256, 256]⟩
abbrev S1x256x256 : Shape := ⟨3, ![1, 256, 256]⟩
abbrev S1048576x256 : Shape := ⟨2, ![1048576, 256]⟩

abbrev nBuf : Space → Nat
  | .hbm => 6
  | .vmem => 5
  | .smem => 0
  | _ => 0

abbrev bufTy : (tb : Table) → Fin (tcTables nBuf tb) → BufTy
  | .hbm, ⟨0, _⟩ => ⟨S1048576, .f32⟩
  | .hbm, ⟨1, _⟩ => ⟨S1024x256, .f32⟩
  | .hbm, ⟨2, _⟩ => ⟨S4096x256, .f32⟩
  | .hbm, ⟨3, _⟩ => ⟨S1024x256, .bf16⟩
  | .hbm, ⟨4, _⟩ => ⟨S4096x256x256, .f32⟩
  | .hbm, ⟨5, _⟩ => ⟨S1048576x256, .f32⟩
  | .local _ .vmem, ⟨0, _⟩ => ⟨S64x256, .f32⟩
  | .local _ .vmem, ⟨1, _⟩ => ⟨S64x256, .f32⟩
  | .local _ .vmem, ⟨2, _⟩ => ⟨S1024x256, .bf16⟩
  | .local _ .vmem, ⟨3, _⟩ => ⟨S64x256x256, .f32⟩
  | .local _ .vmem, ⟨4, _⟩ => ⟨S64x256x256, .f32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let v4 : Index := Scalar.indexCast arg4
  let c0_2 : Index := 0#32
  ![v4.toNat, 0]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let v25 : Index := Scalar.indexCast arg4
  let c0_7 : Index := 0#32
  let c0_8 : Index := 0#32
  ![v25.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1048576_S4096x256 : S1048576.ShapeCasts S4096x256
  bitsLt_bf16_f32 : FTy.bits .bf16 < FTy.bits .f32
  iota_S1024x1_d0_w32 : S1024x1.Iotas .tc 32 [0]
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S1x256 : 0 < S1x256.numel
  shapeCasts_S1x256_S256 : S1x256.ShapeCasts S256
  shapeCasts_S256_S1x256 : S256.ShapeCasts S1x256
  broadcasts_S1024x1_S1024x256 : S1024x1.Broadcasts S1024x256
  broadcasts_S1x256_S1024x256 : S1x256.Broadcasts S1024x256
  natLt_1_32 : 1 < 32
  h_S1x256x256 : 0 < S1x256x256.numel
  shapeCasts_S1x256x256_S256x256 : S1x256x256.ShapeCasts S256x256
  shapeCasts_S256x256_S1x256x256 : S256x256.ShapeCasts S1x256x256
  shapeCasts_S4096x256x256_S1048576x256 : S4096x256x256.ShapeCasts S1048576x256
  dot_S1024x256_S1024x256_S256x256_0_0_1_1_n_n_wf : DotDims.WF S1024x256 S1024x256 S256x256 [0] [0] [1] [1] [] []
  hrank0 : 0 < grid0.rank
  k0_t1_ok : k0_t1_loop.OK
  k0_off1_inb : ∀ k0_t1 : Fin k0_t1_loop.trips, ∀ a, (k0_off1 k0_t1) a + S1x256.size a ≤ S64x256.size a
  k0_off2_inb : ∀ k0_t1 : Fin k0_t1_loop.trips, ∀ a, (k0_off2 k0_t1) a + S1x256x256.size a ≤ S64x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S4096x256.size a
  hwx0_0 : ∀ i : grid0.Coords, EltTy.bits .f32 = 32 ∨ (Rect.block (s := S4096x256) S64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256x256.size a ≤ S4096x256x256.size a
  hwx0_2 : ∀ i : grid0.Coords, EltTy.bits .f32 = 32 ∨ (Rect.block (s := S4096x256x256) S64x256x256.size (cc0_transform_2 i) (hinb0_2 i)).WholeWords (EltTy.packing .f32)

variable [Facts₀]

def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf

abbrev win0_0 : Pipeline.Window sig grid0 :=
  Pipeline.Window.ofSpec (Memref.whole main_v0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576 : Shape := ⟨1, ![1048576]⟩
abbrev S1024x256 : Shape := ⟨2, ![1024, 256]⟩
abbrev S_ : Shape := ⟨0, ![]⟩
abbrev S1048576x1 : Shape := ⟨2, ![1048576, 1]⟩
abbrev S1048576x256 : Shape := ⟨2, ![1048576, 256]⟩

abbrev nBuf : Space → Nat
  | .hbm => 27
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1024x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1048576, .f32⟩
  | .hbm, ⟨6, _⟩ => ⟨S1048576, .f32⟩
  | .hbm, ⟨7, _⟩ => ⟨S_, .f32⟩
  | .hbm, ⟨8, _⟩ => ⟨S1048576, .f32⟩
  | .hbm, ⟨9, _⟩ => ⟨S1048576, .f32⟩
  | .hbm, ⟨10, _⟩ => ⟨S_, .f32⟩
  | .hbm, ⟨11, _⟩ => ⟨S1048576, .f32⟩
  | .hbm, ⟨12, _⟩ => ⟨S1048576, .f32⟩
  | .hbm, ⟨13, _⟩ => ⟨S1048576, .f32⟩
  | .hbm, ⟨14, _⟩ => ⟨S_, .f32⟩
  | .hbm, ⟨15, _⟩ => ⟨S1048576, .f32⟩
  | .hbm, ⟨16, _⟩ => ⟨S1048576, .f32⟩
  | .hbm, ⟨17, _⟩ => ⟨S1048576, .i32⟩
  | .hbm, ⟨18, _⟩ => ⟨S_, .i32⟩
  | .hbm, ⟨19, _⟩ => ⟨S1048576, .i32⟩
  | .hbm, ⟨20, _⟩ => ⟨S1048576, .i1⟩
  | .hbm, ⟨21, _⟩ => ⟨S_, .i32⟩
  | .hbm, ⟨22, _⟩ => ⟨S1048576, .i32⟩
  | .hbm, ⟨23, _⟩ => ⟨S1048576, .i32⟩
  | .hbm, ⟨24, _⟩ => ⟨S1048576, .i32⟩
  | .hbm, ⟨25, _⟩ => ⟨S1048576x1, .i32⟩
  | .hbm, ⟨26, _⟩ => ⟨S1048576x256, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  gather_S1024x256_S1048576x1_S1048576x256_1_0_n_n_0_1_1256_wf : GatherDims.WF S1024x256 S1048576x1 S1048576x256 [1] [0] [] [0] [] 1 ![1, 256]

variable [Facts₀]

def gather_S1024x256_S1048576x1_S1048576x256_1_0_n_n_0_1_1256 : GatherDims S1024x256 S1048576x1 S1048576x256 where
  offsetDims := [1]
  collapsedSliceDims := [0]
  operandBatchingDims := []
  startIndicesBatchingDims := []
  startIndexMap := [0]
  indexVectorDim := 1
  sliceSizes := ![1, 256]
  wf := gather_S1024x256_S1048576x1_S1048576x256_1_0_n_n_0_1_1256_wf

class Facts : Prop extends Facts₀ where

variable [Facts]
-- ==== Proof.Bucket.lean ====
/- The row an index value selects, as a word and as a number; and the sum that a one-hot column picks a row with.

   Both programs turn an index value x into a row of the 1024-row table the same way: clamp x to [0, 1], scale by
   1024, round down, cap at 1023, convert to a 32-bit integer.  Over the extended reals this lands in 0 … 1023 for
   EVERY x, the infinities included: max 0 x lies in [0, +inf], min 1 of that in [0, 1], so the product with 1024 is a
   real in [0, 1024], its floor an integer in [0, 1024], and the cap brings it to [0, 1023]; the conversion of such
   an integer is exact.  The kernel then multiplies the table by the column (k = row ? 1 : 0) and sums over k; since
   0 · a = 0 and 1 · a = a for every extended real a, the sum is the table's entry in that row, with no finiteness
   needed of the table. -/
import Idealize.ShloMosaic.PureOps.Ideal
import Idealize.ShloMosaic.PureOps.Ideal.Laws

noncomputable section

namespace Cert.Bucket

open Idealize.ShloMosaic
open scoped BigOperators

/-! ## The four float words -/

theorem ofBits_one : Ideal.ofBits .f32 0x3F800000#32 = ((1 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_1023 : Ideal.ofBits .f32 0x447FC000#32 = ((1023 : ℝ) : EReal) := by
  simp [Ideal.ofBits, Ideal.ieee, -EReal.coe_mul]; norm_num

/-! ## The row word -/

/-- The 32-bit word both programs compute from an index value: fptosi (min (floor (min 1 (max 0 x) · 1024)) 1023),
    spelt with the operations' own names at the ideal instance so that either program's term is this one on the nose. -/
def bucket (x : EReal) : BitVec 32 :=
  FloatOps.fptosi (F := Ideal) (φ := .f32) 32
    (FloatOps.minimumf (F := Ideal) (φ := .f32)
      (FloatOps.floor (F := Ideal) (φ := .f32)
        (FloatOps.mulf (F := Ideal) (φ := .f32)
          (FloatOps.minimumf (F := Ideal) (φ := .f32) (FloatOps.ofBits (F := Ideal) .f32 0x3F800000#32)
            (FloatOps.maximumf (F := Ideal) (φ := .f32) (FloatOps.ofBits (F := Ideal) .f32 0x00000000#32) x))
          (FloatOps.ofBits (F := Ideal) .f32 0x44800000#32)))
      (FloatOps.ofBits (F := Ideal) .f32 0x447FC000#32))

/-- Clamping any extended real to [0, 1] gives a real number in [0, 1]. -/
theorem clamp01 (x : EReal) : ∃ r : ℝ, 0 ≤ r ∧ r ≤ 1 ∧ min ((1 : ℝ) : EReal) (max 0 x) = (r : EReal) := by
  induction x using EReal.rec with
  | bot => exact ⟨0, le_refl _, zero_le_one, by simp⟩
  | top => exact ⟨1, zero_le_one, le_refl _, by simp⟩
  | coe a =>
    refine ⟨min 1 (max 0 a), le_min zero_le_one (le_max_left _ _), min_le_left _ _, ?_⟩
    rw [EReal.coe_strictMono.monotone.map_min, EReal.coe_strictMono.monotone.map_max, EReal.coe_zero]

/-- The row word is the word of a number below 1024, for every index value. -/
theorem bucket_eq (x : EReal) : ∃ n : ℕ, n < 1024 ∧ bucket x = BitVec.ofNat 32 n := by
  obtain ⟨r, hr0, hr1, hr⟩ := clamp01 x
  have hb : bucket x = Ideal.fptosi 32 (min (Ideal.liftRound Int.floor
      (min ((1 : ℝ) : EReal) (max 0 x) * ((1024 : ℝ) : EReal))) ((1023 : ℝ) : EReal)) := by
    show Ideal.fptosi 32 (min (Ideal.liftRound Int.floor (min (Ideal.ofBits .f32 0x3F800000#32)
      (max (Ideal.ofBits .f32 0x00000000#32) x) * Ideal.ofBits .f32 0x44800000#32)) (Ideal.ofBits .f32 0x447FC000#32)) = _
    rw [ofBits_one, Ideal.ofBits_zero_f32, ofBits_1024, ofBits_1023]
  rw [hb, hr, ← EReal.coe_mul, Ideal.liftRound_coe]
  have hz0 : (0 : ℤ) ≤ min ⌊r * 1024⌋ 1023 := le_min (Int.floor_nonneg.mpr (by positivity)) (by norm_num)
  have hz1 : min ⌊r * 1024⌋ 1023 ≤ (1023 : ℤ) := min_le_right _ _
  have hm : min ((((⌊r * 1024⌋ : ℤ) : ℝ)) : EReal) ((1023 : ℝ) : EReal) = (((min ⌊r * 1024⌋ 1023 : ℤ) : ℝ) : EReal) := by
    rw [Int.cast_min, EReal.coe_strictMono.monotone.map_min]; norm_num
  rw [hm]
  generalize min ⌊r * 1024⌋ (1023 : ℤ) = z at hz0 hz1 ⊢
  refine ⟨z.toNat, by omega, ?_⟩
  unfold Ideal.fptosi
  rw [Ideal.toIntClamped_coe, if_pos (by exact_mod_cast hz0), Int.floor_intCast, ← BitVec.ofInt_natCast]
  congr 1
  have h31 : ((2 ^ (32 - 1) : ℕ) : ℤ) = 2147483648 := by norm_num
  rw [h31]
  omega

/-- That number. -/
def rowIx (x : EReal) : Fin 1024 := ⟨(bucket x).toNat, by
  obtain ⟨n, hn, h⟩ := bucket_eq x
  rw [h, BitVec.toNat_ofNat]; omega⟩

/-- The row word is that number's word, -/
theorem bucket_ofNat (x : EReal) : bucket x = BitVec.ofNat 32 (rowIx x).val := by
  show bucket x = BitVec.ofNat 32 (bucket x).toNat
  rw [BitVec.ofNat_toNat, BitVec.setWidth_eq]

/-- and read signed it is that number (it is far below 2^31). -/
theorem bucket_toInt (x : EReal) : (bucket x).toInt = ((rowIx x).val : ℤ) := by
  have h : (bucket x).toNat < 1024 := (rowIx x).isLt
  show (bucket x).toInt = ((bucket x).toNat : ℤ)
  exact BitVec.toInt_eq_toNat_of_lt (by omega)

end Cert.Bucket

end
-- ==== Proof.LibOneHotRows.lean ====
/- A gather of table rows done as a product with one-hot columns, over the extended reals, for any extents.

   Column j of the [K × M] one-hot array has a one in row n_j and zeros elsewhere; contracting its axis 0 with axis 0
   of a [K × D] table gives at (j, q) the sum over k of [k = n_j] · table (k, q), which is table (n_j, q): on the
   extended reals 0 · a = 0 and 1 · a = a for EVERY a, the infinities included, so nothing is asked of the table.
   Here: a column [a, 1] broadcast over b columns read at an index; the contraction over axis 0 of both operands
   read at (j, q) as a sum over Fin K; the one-hot entry built from an integer compare (compare for equality, widen
   the bit, convert to float) as the number 0 or 1; and the sum it picks a row with. -/
import Idealize.ShloMosaic.PureOps.Ideal
import Idealize.ShloMosaic.PureOps.Ideal.Laws
import Idealize.ShloMosaic.Lib.ValueIdx
import Idealize.ShloMosaic.Lib.Pipeline.Value

noncomputable section

namespace Cert.OneHotRows

open Idealize.ShloMosaic Idealize.ShloMosaic.ValueIdx
open scoped BigOperators

/-- An [a, 1] column broadcast to [a, b] reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of a [K × M] array with a [K × D] array that contracts axis 0 of both (the first one's transpose times
    the second, with no transposition computed): at (j, q) the sum over k of l (k, j) · r (k, q). -/
theorem dotCols_apply {K M D : Nat} (d : DotDims ⟨2, ![K, M]⟩ ⟨2, ![K, D]⟩ ⟨2, ![M, D]⟩)
    (hlc : d.lhsContracting = [0]) (hrc : d.rhsContracting = [0]) (hln : d.lhsNonContracting = [1])
    (hrn : d.rhsNonContracting = [1]) (hlb : d.lhsBatch = []) (hrb : d.rhsBatch = [])
    (l : (⟨2, ![K, M]⟩ : Shape).Idx → EReal) (r : (⟨2, ![K, D]⟩ : Shape).Idx → EReal) (j : Fin M) (q : Fin D) :
    (∑ k : d.contr.Idx, l (d.lhsIdx (ix2 j q) k) * r (d.rhsIdx (ix2 j q) k)) = ∑ k : Fin K, l (ix2 k j) * r (ix2 k q) := by
  obtain ⟨lc, rc, ln, rn, lb, rb, wf⟩ := d
  subst hlc hrc hln hrn hlb hrb
  set d : DotDims ⟨2, ![K, M]⟩ ⟨2, ![K, D]⟩ ⟨2, ![M, D]⟩ := ⟨[0], [0], [1], [1], [], [], wf⟩ with hd
  have hr : d.contr.rank = 1 := rfl
  have hs : d.contr.size ⟨0, by omega⟩ = K := rfl
  rw [← Equiv.sum_comp (contrEquiv1 d K hr hs).symm]
  refine Finset.sum_congr rfl fun k _ => ?_
  have hl : d.lhsIdx (ix2 j q) ((contrEquiv1 d K hr hs).symm k) = ix2 k j := by
    funext a; refine Fin.ext ?_
    match a with
    | ⟨0, _⟩ => rfl
    | ⟨1, _⟩ => rfl
  have hr' : d.rhsIdx (ix2 j q) ((contrEquiv1 d K hr hs).symm k) = ix2 k q := by
    funext a; refine Fin.ext ?_
    match a with
    | ⟨0, _⟩ => rfl
    | ⟨1, _⟩ => rfl
  rw [hl, hr']

/-- The one-hot entry as the programs build it — compare two 32-bit words for equality, widen the answer bit to 32
    bits, read it signed — is 1 when the two numbers are equal and 0 otherwise (for numbers below 2^32). -/
theorem oneHot_toInt (k n : ℕ) (hk : k < 2 ^ 32) (hn : n < 2 ^ 32) :
    ((IntOp.cmpi .eq (BitVec.ofNat 32 k) (BitVec.ofNat 32 n)).setWidth 32).toInt = if k = n then 1 else 0 := by
  by_cases h : k = n
  · subst h; simp [IntOp.cmpi]
  · have hne : (BitVec.ofNat 32 k == BitVec.ofNat 32 n) = false := by
      rw [beq_eq_false_iff_ne]
      intro e
      apply h
      have e' := congrArg BitVec.toNat e
      rw [BitVec.toNat_ofNat, BitVec.toNat_ofNat, Nat.mod_eq_of_lt hk, Nat.mod_eq_of_lt hn] at e'
      exact e'
    rw [if_neg h]
    show ((BitVec.ofBool (BitVec.ofNat 32 k == BitVec.ofNat 32 n)).setWidth 32).toInt = 0
    rw [hne]; rfl

/-- The column (k = n ? 1 : 0), as floats, times a function of k, summed: the function at n. -/
theorem oneHot_sum {K : ℕ} (hK : K ≤ 2 ^ 32) (f : Fin K → EReal) (n : Fin K) :
    ∑ k : Fin K, ((((IntOp.cmpi .eq (BitVec.ofNat 32 k.val) (BitVec.ofNat 32 n.val)).setWidth 32).toInt : ℝ) : EReal) * f k
      = f n := by
  have hlt : ∀ k : Fin K, k.val < 2 ^ 32 := fun k => lt_of_lt_of_le k.isLt hK
  rw [Finset.sum_eq_single n]
  · rw [oneHot_toInt _ _ (hlt n) (hlt n), if_pos rfl]; simp
  · intro k _ hk
    rw [oneHot_toInt _ _ (hlt k) (hlt n), if_neg (fun e => hk (Fin.ext e))]; simp
  · intro h; exact absurd (Finset.mem_univ n) h

end Cert.OneHotRows

end
-- ==== Proof.Payload.lean ====
/- What one trip of the kernel's loop stores, read at an index.

   A trip loads one row of 256 index values, turns each into its row word, builds the [1024 × 256] one-hot array
   (entry (k, j) is 1 when k is lane j's row, else 0), multiplies its transpose with the [1024 × 256] table on the
   matrix unit into a zero accumulator, and stores the [256 × 256] product as one [1 × 256 × 256] slab.  At the
   ideal instance entry (j, q) of the product is the sum over k of [k = row_j] · table (k, q) = table (row_j, q). -/
import proofs.«158060_j24515673325873_1_alg».proof.Proof.Gen.KernelIdeal.Skeleton
import proofs.«158060_j24515673325873_1_alg».proof.Proof.Bucket
import proofs.«158060_j24515673325873_1_alg».proof.Proof.LibOneHotRows
import Idealize.ShloMosaic.Lib.ValueLayout

noncomputable section

namespace Cert.KernelIdeal.Payload

open Cert.KernelIdeal Cert.KernelIdeal.Gen Idealize.ShloMosaic Idealize.ShloMosaic.ValueIdx
open Cert.Bucket Cert.OneHotRows
open scoped BigOperators

/-- The slab a trip stores, at (u, j, q): the table's entry (row of lane j, q), the row computed from the lane's
    index value. -/
theorem pay_apply (v1 : Vec Ideal S1024x256 .bf16) (v5 : Vec Ideal S1x256 .f32) (u : Fin 1) (j q : Fin 256) :
    k0_pay1 (F := Ideal) v1 v5 (ix3 u j q) = v1 (ix2 (rowIx (v5 (ix2 (0 : Fin 1) j))) q) := by
  unfold k0_pay1
  dsimp only
  rw [shapeCast_ab_1ab_apply]
  refine (Ideal.matmul_constant_zero_apply _ none _ _ (ix2 j q)).trans ?_
  rw [dotCols_apply _ rfl rfl rfl rfl rfl rfl, shapeCast_self]
  refine (Finset.sum_congr rfl fun k _ => ?_).trans
    (oneHot_sum (by norm_num) (fun k : Fin 1024 => v1 (ix2 k q)) (rowIx (v5 (ix2 (0 : Fin 1) j))))
  refine congrArg (· * v1 (ix2 k q)) ?_
  show ((((IntOp.cmpi .eq
      (broadcastTo S1024x256 (iota Kind.tc S1024x1 32 [0] iota_S1024x1_d0_w32) broadcasts_S1024x1_S1024x256 (ix2 k j))
      (broadcastTo S1024x256 _ broadcasts_S1x256_S1024x256 (ix2 k j))).setWidth 32).toInt : ℝ) : EReal) = _
  rw [broadcastTo_a1_ab_apply, iota_single_apply, broadcastTo_1b_ab_apply, shapeCast_a_1a_apply]
  show ((((IntOp.cmpi .eq (BitVec.ofNat 32 k.val) (bucket (shapeCast S256 v5 shapeCasts_S1x256_S256 (ix1 j)))).setWidth 32).toInt : ℝ) : EReal) = _
  rw [shapeCast_1a_a_apply, bucket_ofNat]

end Cert.KernelIdeal.Payload

end
-- ==== Proof.Pieces.lean ====
/- What the kernel's body leaves in its output block: one function of the two input blocks.

   The body's loop runs 64 trips; trip k loads row k of the [64 × 256] block of index values, and stores the
   [1 × 256 × 256] slab computed from it at rows k of the output block.  The frame's run names what the output
   holds as the list of stored pieces read back; every piece restricts ONE function of the block index —
   (r, j, q) ↦ table (row of value (r, j), q) — and the pieces cover the block, so the block holds that function. -/
import proofs.«158060_j24515673325873_1_alg».proof.Proof.Gen.KernelIdeal.Frame
import proofs.«158060_j24515673325873_1_alg».proof.Proof.Payload

set_option maxRecDepth 16384

noncomputable section

namespace Cert.KernelIdeal.Pieces

open Cert.KernelIdeal Cert.KernelIdeal.Gen Idealize.ShloMosaic Idealize.ShloMosaic.TcCoe Idealize.ShloMosaic.ValueIdx
open Idealize.SL.Sem
open Cert.Bucket Cert.KernelIdeal.Payload

/-- The output block as a function of the block of index values and the table: entry (r, j, q) is the table's entry
    (row of value (r, j), q). -/
def blockOut (x0 : Vec Ideal S64x256 .f32) (x1 : Vec Ideal S1024x256 .bf16) : Vec Ideal S64x256x256 .f32 :=
  fun y => x1 (ix2 (rowIx (x0 (ix2 (y 0) (y 1)))) (y 2))

/-- Trip k's one piece restricts that function: its slab at (u, j, q) sits at (k, j, q) of the block, and was computed
    from row k of the values. -/
theorem trip_piece (arg1 : Memref sig .tc .vmem S64x256 .f32) (harg1 : arg1.IsWhole)
    (v1 : Vec Ideal S1024x256 .bf16) (x0 : Vec Ideal S64x256 .f32) (k : Fin k0_t1_loop.trips) (x : S1x256x256.Idx) :
    k0_pay1 (F := Ideal) v1 (View.readAt (Elt Ideal) arg1.view
        (Rect.unit (s := S64x256) (k0_off1 k) S1x256.size (k0_off1_inb k)).toLoadRect (harg1.unread x0)) x
      = blockOut x0 v1 ((Rect.unit (s := S64x256x256) (k0_off2 k) S1x256x256.size (k0_off2_inb k)).emb x) := by
  obtain ⟨u, j, q, rfl⟩ : ∃ (u : Fin 1) (j q : Fin 256), x = ix3 u j q := ⟨x 0, x 1, x 2, eq_ix3 x⟩
  rw [pay_apply, View.readAt_eq_ld, harg1.read_unread]
  have hu : u.val = 0 := by omega
  have h01 : (Rect.unit (s := S64x256) (k0_off1 k) S1x256.size (k0_off1_inb k)).toLoadRect.idx (ix2 (0 : Fin 1) j)
      = ix2 ((Rect.unit (s := S64x256x256) (k0_off2 k) S1x256x256.size (k0_off2_inb k)).emb (ix3 u j q) 0)
          ((Rect.unit (s := S64x256x256) (k0_off2 k) S1x256x256.size (k0_off2_inb k)).emb (ix3 u j q) 1) := by
    funext a; refine Fin.ext ?_
    match a with
    | ⟨0, _⟩ =>
      show k0_off1 k 0 + 1 * 0 = k0_off2 k 0 + 1 * u.val
      rw [k0_off1_eq, k0_off2_eq, hu]; rfl
    | ⟨1, _⟩ =>
      show k0_off1 k 1 + 1 * j.val = k0_off2 k 1 + 1 * j.val
      rw [k0_off1_eq, k0_off2_eq]; rfl
  have h2 : q = (Rect.unit (s := S64x256x256) (k0_off2 k) S1x256x256.size (k0_off2_inb k)).emb (ix3 u j q) 2 := by
    refine Fin.ext ?_
    show q.val = k0_off2 k 2 + 1 * q.val
    rw [k0_off2_eq]; show q.val = 0 + 1 * q.val; omega
  show v1 (ix2 (rowIx (x0 ((Rect.unit (s := S64x256) (k0_off1 k) S1x256.size (k0_off1_inb k)).toLoadRect.idx (ix2 (0 : Fin 1) j)))) q) = _
  rw [h01]
  exact congrArg (fun z => v1 (ix2 (rowIx (x0 (ix2 _ _))) z)) h2

/-- Every piece of the trips before n restricts the block function. -/
theorem pieces_agree (𝒱 : Variants) (c : Dev nD) (bd : Option 𝒱.V) (i : grid0.Coords)
    (arg1 : Memref sig .tc .vmem S64x256 .f32) (harg1 : arg1.IsWhole) (arg2 : Memref sig .tc .vmem S1024x256 .bf16) (harg2 : arg2.IsWhole)
    (arg3 : Memref sig .tc .vmem S64x256x256 .f32) (harg3 : arg3.IsWhole)
    (v1 : Vec Ideal S1024x256 .bf16) (x0 : Vec Ideal S64x256 .f32) :
    ∀ n : ℕ, ∀ p ∈ pb_k0_t1 (F := Ideal) 𝒱 c bd i arg1 harg1 arg2 harg2 arg3 harg3 v1 (harg1.unread x0) n,
      ∀ x : p.1.shape.Idx, p.2 x = blockOut x0 v1 (p.1.emb x)
  | 0 => by
    intro p hp
    rw [pb_k0_t1.eq_1] at hp
    exact absurd hp List.not_mem_nil
  | n + 1 => by
    intro p hp
    rw [pb_k0_t1.eq_2] at hp
    unfold pb_k0_t1Step at hp
    split at hp
    · rename_i h
      rcases List.mem_append.mp hp with hp | hp
      · unfold tripL_k0_t1 trip_k0_t1 at hp
        dsimp only at hp
        rw [List.mem_singleton] at hp
        subst hp
        exact trip_piece arg1 harg1 v1 x0 ⟨n, h⟩
      · exact pieces_agree 𝒱 c bd i arg1 harg1 arg2 harg2 arg3 harg3 v1 x0 n p hp
    · exact pieces_agree 𝒱 c bd i arg1 harg1 arg2 harg2 arg3 harg3 v1 x0 n p hp

/-- So the output block the run leaves is the block function of the two input blocks. -/
theorem out_eq (c : Dev nD) (i : grid0.Coords)
    (arg1 : Memref sig .tc .vmem S64x256 .f32) (harg1 : arg1.IsWhole) (arg2 : Memref sig .tc .vmem S1024x256 .bf16) (harg2 : arg2.IsWhole)
    (arg3 : Memref sig .tc .vmem S64x256x256 .f32) (harg3 : arg3.IsWhole)
    (x0 : Vec Ideal S64x256 .f32) (x1 : Vec Ideal S1024x256 .bf16) :
    out0_A_2 (F := Ideal) c i arg1 harg1 arg2 harg2 arg3 harg3 x0 x1 = blockOut x0 x1 := by
  funext y
  unfold out0_A_2
  refine View.read_writes_apply_of_pieces _ _ (blockOut x0 x1) _ ?_ y (cover0_A_2 c i arg1 harg1 arg2 harg2 arg3 harg3 x0 x1 y)
  unfold kernelRun0_A
  dsimp only
  have hz : (![0, 0] : Fin 2 → ℕ) = fun _ => 0 := by funext a; fin_cases a <;> rfl
  generalize hV : View.readAt (Elt Ideal) arg2.view _ (harg2.unread x1) = V
  have hVx : V = x1 := by
    rw [← hV, View.readAt_eq_ld, harg2.read_unread]
    exact View.ld_unit_zero (S := S1024x256) hz _ x1
  subst hVx
  exact pieces_agree Variants.none c none i arg1 harg1 arg2 harg2 arg3 harg3 _ x0 _

end Cert.KernelIdeal.Pieces

end
-- ==== Proof.Spec.lean ====
/- The result both programs compute, as one function of the two arguments.

   out (p, q) = items (row of indices p, q), for p below 1048576 and q below 256, the row of an index value being the
   number in 0 … 1023 that clamping to [0, 1], scaling by 1024, rounding down and capping at 1023 gives. -/
import proofs.«158060_j24515673325873_1_alg».proof.Proof.Bucket
import Idealize.ShloMosaic.Lib.ValueIdx

noncomputable section

namespace Cert.Spec

open Idealize.ShloMosaic Idealize.ShloMosaic.ValueIdx Cert.Bucket

/-- The gathered rows: entry (p, q) is the table's entry (row of index value p, q). -/
def gathered (x : (⟨1, ![1048576]⟩ : Shape).Idx → EReal) (items : (⟨2, ![1024, 256]⟩ : Shape).Idx → EReal) :
    (⟨2, ![1048576, 256]⟩ : Shape).Idx → EReal :=
  fun i => items (ix2 (rowIx (x (ix1 (i 0)))) (i 1))

theorem gathered_ix2 (x : (⟨1, ![1048576]⟩ : Shape).Idx → EReal) (items : (⟨2, ![1024, 256]⟩ : Shape).Idx → EReal)
    (p : Fin 1048576) (q : Fin 256) : gathered x items (ix2 p q) = items (ix2 (rowIx (x (ix1 p))) q) := rfl

end Cert.Spec

end
-- ==== Proof.KernelValue.lean ====
/- The kernel's result array, as one function of the two arguments.

   @main reshapes the 1048576 index values to [4096 × 256] and converts the table to bf16 (the identity on extended
   reals); the region's point t takes rows 64t … 64t+63 of the reshaped values and the whole table, and writes back
   the [64 × 256 × 256] block at rows 64t … of the [4096 × 256 × 256] result; the 64 points' blocks tile the result;
   @main then reshapes it to [1048576 × 256].  Position (p, q) of that, p = 256·R + j, is entry (R, j, q) of the
   result, computed from value (R, j) of the reshaped values, which is index value p: the gathered rows. -/
import proofs.«158060_j24515673325873_1_alg».proof.Proof.Pieces
import proofs.«158060_j24515673325873_1_alg».proof.Proof.Spec
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.Bucket Cert.Spec Cert.KernelIdeal.Pieces

variable (m : (ℓ : Loc nD τ sig) → Buf (Elt Ideal) ℓ) (ρ : Dev nD → PrngReg)

/-- The reshaped index values and the converted table, as the region finds them. -/
abbrev xs (c : Dev nD) : Vec Ideal S4096x256 .f32 := V m c main_v0
abbrev tab (c : Dev nD) : Vec Ideal S1024x256 .bf16 := V m c main_v1

/-- The region's result array as a function of those two: entry (R, j, q) is the table's entry (row of value (R, j), q). -/
def slabs (x : Vec Ideal S4096x256 .f32) (t : Vec Ideal S1024x256 .bf16) : Vec Ideal S4096x256x256 .f32 :=
  fun z => t (ix2 (rowIx (x (ix2 (z 0) (z 1)))) (z 2))

/-- The printed index maps over the grid: the values' and the result's blocks move with the point on axis 0, the
    table's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point t writes back is block t of the result function. -/
theorem flushed_eq (c : Dev nD) (t : Fin cfg0.N) :
    (dats m 0 c).flushed 2 t = ((cfg0.win 2).blk t).view.read (Elt Ideal) (slabs (xs m c) (tab m c)) := by
  show (cfg0.win 2).cut (grid0.coords t) ((dats m 0 c).after 2 t) = _
  rw [after0_2]
  unfold outsAt0
  rw [out_eq]
  obtain ⟨e00, e01, e10, e11, e20, e21, e22⟩ := idx_facts t
  funext y
  revert y
  intro (y : S64x256x256.Idx)
  obtain ⟨r, j, q, rfl⟩ : ∃ (r : Fin 64) (j q : Fin 256), y = ix3 r j q := ⟨y 0, y 1, y 2, eq_ix3 y⟩
  show tab m c (((cfg0.win 1).blk t).view.emb (ix2 (rowIx (xs m c (((cfg0.win 0).blk t).view.emb (ix2 r j)))) q))
    = slabs (xs m c) (tab m c) (((cfg0.win 2).blk t).view.emb (ix3 r j q))
  have h0 : ((cfg0.win 0).blk t).view.emb (ix2 r j)
      = ix2 ((((cfg0.win 2).blk t).view.emb (ix3 r j q)) 0) ((((cfg0.win 2).blk t).view.emb (ix3 r j q)) 1) := by
    funext a; apply Fin.ext
    match a with
    | ⟨0, _⟩ => show win0_0.index t (0 : Fin 2) * 64 + 1 * r.val = win0_2.index t (0 : Fin 3) * 64 + 1 * r.val; omega
    | ⟨1, _⟩ => show win0_0.index t (1 : Fin 2) * 256 + 1 * j.val = win0_2.index t (1 : Fin 3) * 256 + 1 * j.val; omega
  have h1 : ∀ R : Fin 1024, ((cfg0.win 1).blk t).view.emb (ix2 R q)
      = ix2 R ((((cfg0.win 2).blk t).view.emb (ix3 r j q)) 2) := by
    intro R
    funext a; apply Fin.ext
    match a with
    | ⟨0, _⟩ => show win0_1.index t (0 : Fin 2) * 1024 + 1 * R.val = R.val; omega
    | ⟨1, _⟩ => show win0_1.index t (1 : Fin 2) * 256 + 1 * q.val = win0_2.index t (2 : Fin 3) * 256 + 1 * q.val; omega
  rw [h0, h1]
  rfl

/-- An index of the result is in point t's block iff each coordinate is in the block's range on its axis. -/
theorem mem_blk (t : Fin cfg0.N) (i : S4096x256x256.Idx) :
    i ∈ ((cfg0.win 2).blk t).view.set ↔ ∀ a : Fin 3, win0_2.index t a * S64x256x256.size a ≤ (i a).val
      ∧ (i a).val < win0_2.index t a * S64x256x256.size a + S64x256x256.size a := by
  show i ∈ ((View.whole main_v2).slice (win0_2.rect t)).set ↔ _
  rw [View.set_slice_whole, Rect.mem_set_unit]
  exact Iff.rfl

/-- The 64 points' blocks tile the result: row R lies in the block of point R / 64. -/
theorem cover (i : S4096x256x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  have hi2 : (i 2).val < 256 := (i 2).isLt
  have hN : grid0.N = 64 := N_0
  refine ⟨⟨(i 0).val / 64, by show (i 0).val / 64 < grid0.N; omega⟩, flush0_2 _, ?_⟩
  rw [mem_blk]
  obtain ⟨-, -, -, -, e20, e21, e22⟩ := idx_facts ⟨(i 0).val / 64, by show (i 0).val / 64 < grid0.N; omega⟩
  intro a
  match a with
  | ⟨0, _⟩ =>
    show win0_2.index _ (0 : Fin 3) * 64 ≤ (i 0).val ∧ (i 0).val < win0_2.index _ (0 : Fin 3) * 64 + 64
    rw [e20]; show (i 0).val / 64 * 64 ≤ (i 0).val ∧ (i 0).val < (i 0).val / 64 * 64 + 64; omega
  | ⟨1, _⟩ =>
    show win0_2.index _ (1 : Fin 3) * 256 ≤ (i 1).val ∧ (i 1).val < win0_2.index _ (1 : Fin 3) * 256 + 256
    rw [e21]; omega
  | ⟨2, _⟩ =>
    show win0_2.index _ (2 : Fin 3) * 256 ≤ (i 2).val ∧ (i 2).val < win0_2.index _ (2 : Fin 3) * 256 + 256
    rw [e22]; omega

/-- The region's result array after the run. -/
theorem final (c : Dev nD) : (dats m 0 c).arrAt 2 cfg0.N = slabs (xs m c) (tab m c) :=
  (dats m 0 c).arrAt_eq_of_cover 2 _ (fun t _ => flushed_eq m c t) cover

/-- The values as the region finds them: the index values reshaped to [4096 × 256]. -/
theorem xs_eq (c : Dev nD) :
    xs m c = shapeCast S4096x256 (m ((c : Thread nD τ).loc main_arg0)) shapeCasts_S1048576_S4096x256 := by
  show StableHlo.after hostOps0 (fun b => m (c, b)) (Proc.devRef .tc main_v0) = _
  after_results
  rfl

/-- The table as the region finds it: the table itself (a change of float format is the identity on extended reals). -/
theorem tab_eq (c : Dev nD) : tab m c = m ((c : Thread nD τ).loc main_arg1) := by
  show StableHlo.after hostOps0 (fun b => m (c, b)) (Proc.devRef .tc main_v1) = _
  after_results
  rfl

/-- @main's result: the region's result reshaped to [1048576 × 256]. -/
theorem tail_eq (c : Dev nD) :
    Pipeline.afterTail₀ cfgs (dats m) 0 (V0 m) [hostOps1] c main_v3
      = shapeCast S1048576x256 (slabs (xs m c) (tab m c)) shapeCasts_S4096x256x256_S1048576x256 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = slabs (xs m c) (tab m c) :=
    (Pipeline.withArrays_arr spec0 launch0.win.arr_inj c _ _ 2).trans (final m c)
  rw [hw]
  rfl

/-- Reshaping the result function to [1048576 × 256] over the reshaped values gives the gathered rows of the index
    values: position (p, q) with p = 256·R + j is entry (R, j, q), and value (R, j) is index value p. -/
theorem reshaped_eq (x : Vec Ideal S1048576 .f32) (items : Vec Ideal S1024x256 .bf16) :
    shapeCast S1048576x256 (slabs (shapeCast S4096x256 x shapeCasts_S1048576_S4096x256) items) shapeCasts_S4096x256x256_S1048576x256
      = gathered x items := by
  funext i
  obtain ⟨p, q, rfl⟩ : ∃ (p : Fin 1048576) (q : Fin 256), i = ix2 p q := ⟨i 0, i 1, eq_ix2 i⟩
  have hp : p.val < 1048576 := p.isLt
  rw [shapeCast_apply _ _ (ix2 p q) (ix3 (⟨p.val / 256, by omega⟩ : Fin 4096) (⟨p.val % 256, by omega⟩ : Fin 256) q) (by
    rw [Shape.rowMajor_val_three, Shape.rowMajor_val_two]
    show (p.val / 256 * 256 + p.val % 256) * 256 + q.val = p.val * 256 + q.val
    omega)]
  rw [gathered_ix2]
  show items (ix2 (rowIx (shapeCast S4096x256 x shapeCasts_S1048576_S4096x256 (ix2 (⟨p.val / 256, _⟩ : Fin 4096) (⟨p.val % 256, _⟩ : Fin 256)))) q) = _
  rw [shapeCast_apply x _ (ix2 (⟨p.val / 256, by omega⟩ : Fin 4096) (⟨p.val % 256, by omega⟩ : Fin 256)) (ix1 p) (by
    rw [Shape.rowMajor_val_two, Shape.rowMajor_val_one]
    show p.val = p.val / 256 * 256 + p.val % 256
    omega)]

/-- The kernel's run: @main's result is the gathered rows, the arguments are unchanged. -/
theorem run : θ_run defs (onTc (τ := τ) (main (F := Ideal))) ⟨m, fun _ => 0, ρ⟩ fun r => ∀ c : Dev nD,
      r.2.mem ((c.tc : Thread nD τ).loc main_v3) = gathered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        ((tail_eq m c).trans (by rw [xs_eq, tab_eq]; exact reshaped_eq _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.LibHostRead.lean ====
/- Host operations of the two programs read at an index, at the ideal instance: a gather of whole rows by a column
   of index words, the accumulating scatter of whole rows (and of single entries) by a column of index words, the
   concatenation of two vectors, the host's column sum and matrix product.  Every statement is over literal-rank
   shapes of arbitrary extents, so both programs (edge lists of 1600000 and of 1700000 entries) use the same lemma. -/
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.Pipeline.Value

noncomputable section

namespace Cert.HostRead

open Idealize.ShloMosaic Idealize.ShloMosaic.ValueIdx
open scoped BigOperators

/-- A gather of whole rows of an [N × D] table by an [M × 1] column of index words (jnp's `table[idx]`): row `p` of
    the result is the table's row at the word read signed and clamped into [0, N-1]. -/
theorem rowGather_apply {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![M, 1]⟩ w) (p : Fin M) (q : Fin D) (hN : 0 < N) :
    Host.gather d x idx (ix2 p q) = x (ix2 ⟨min (idx (ix2 p 0)).toInt.toNat (N - 1), by omega⟩ q) := by
  obtain ⟨od, cd, ob, sb, sm, ivd, ss, wf⟩ := d
  subst hoff hcoll hob hsb hsim hivd
  set d : GatherDims ⟨2, ![N, D]⟩ ⟨2, ![M, 1]⟩ ⟨2, ![M, D]⟩ := ⟨[1], [0], [], [], [0], 1, ss, wf⟩ with hd
  have hsl : ss 0 = 1 := d.slice_collapsed 0 (List.mem_singleton.mpr rfl)
  have hb : ∀ a : Fin 2, a ∉ d.operandBatchingDims := fun a => List.not_mem_nil
  unfold Host.gather
  congr 1
  funext a
  refine Fin.ext ?_
  match a with
  | ⟨0, _⟩ =>
    show d.start (ix2 p q) idx 0 + d.batchCoord (ix2 p q) 0 + d.offCoord (ix2 p q) 0 = min (idx (ix2 p 0)).toInt.toNat (N - 1)
    rw [GatherDims.batchCoord_eq_zero _ _ _ (hb 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix2 p q) ⟨List.idxOf (0 : Fin 2) d.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    show min (idx (ix2 p 0)).toInt.toNat (N - ss 0) = _
    rw [hsl]
  | ⟨1, _⟩ =>
    show d.start (ix2 p q) idx 1 + d.batchCoord (ix2 p q) 1 + d.offCoord (ix2 p q) 1 = q.val
    rw [GatherDims.batchCoord_eq_zero _ _ _ (hb 1)]
    have hst : d.start (ix2 p q) idx 1 = 0 := by
      unfold GatherDims.start
      rw [dif_neg (show (1 : Fin 2) ∉ [(0 : Fin 2)] by decide)]
    rw [hst]
    unfold GatherDims.offCoord
    have hk : (1 : Fin 2) ∈ d.sKept := (by decide : (1 : Fin 2) ∈ (List.finRange 2).filter (· ∉ [(0 : Fin 2)] ++ []))
    rw [dif_pos hk]
    simp only [Nat.zero_add]
    rfl

/-- Where an update entry (p, q') of the row scatter lands: on operand axis 0 the start is the index word of row `p`
    read signed and the window coordinate is 0 (the axis is inserted); on axis 1 the start is 0 and the window
    coordinate is `q'`. So it lands at (n, q) exactly when the word is `n` and `q' = q`. -/
theorem row_resultIdx_iff {N M D w : Nat}
    (wf : ScatterDims.WF ⟨2, ![N, D]⟩ ⟨2, ![M, 1]⟩ ⟨2, ![M, D]⟩ [1] [0] [0] 1)
    (idx : IVec ⟨2, ![M, 1]⟩ w) (p : Fin M) (q' : Fin D) (n : Fin N) (q : Fin D) :
    (⟨[1], [0], [0], 1, wf⟩ : ScatterDims ⟨2, ![N, D]⟩ ⟨2, ![M, 1]⟩ ⟨2, ![M, D]⟩).resultIdx? (ix2 p q') idx = some (ix2 n q)
      ↔ (idx (ix2 p 0)).toInt = (n.val : Int) ∧ q' = q := by
  set d : ScatterDims ⟨2, ![N, D]⟩ ⟨2, ![M, 1]⟩ ⟨2, ![M, D]⟩ := ⟨[1], [0], [0], 1, wf⟩ with hd
  have hs0 : d.start (ix2 p q') idx 0 = (idx (ix2 p 0)).toInt := by
    unfold ScatterDims.start
    rw [dif_pos (show (0 : Fin 2) ∈ d.scatterDimsToOperandDims from List.mem_singleton.mpr rfl)]
    congr 2
    funext b; refine Fin.ext ?_
    match b with
    | ⟨0, _⟩ => rfl
    | ⟨1, _⟩ => rfl
  have hs1 : d.start (ix2 p q') idx 1 = 0 := by
    unfold ScatterDims.start
    rw [dif_neg (show (1 : Fin 2) ∉ [(0 : Fin 2)] by decide)]
  have hw0 : d.window (ix2 p q') 0 = 0 := by
    unfold ScatterDims.window
    have hk : (0 : Fin 2) ∉ d.sKept := (by decide : (0 : Fin 2) ∉ (List.finRange 2).filter (· ∉ [(0 : Fin 2)]))
    rw [dif_neg hk]
  have hw1 : d.window (ix2 p q') 1 = q'.val := by
    unfold ScatterDims.window
    have hk : (1 : Fin 2) ∈ d.sKept := (by decide : (1 : Fin 2) ∈ (List.finRange 2).filter (· ∉ [(0 : Fin 2)]))
    rw [dif_pos hk]
    rfl
  unfold ScatterDims.resultIdx?
  split
  · rename_i h
    rw [Option.some.injEq, funext_iff, Fin.forall_fin_two]
    have h0 := h 0
    have h1 := h 1
    rw [hs0, hw0] at h0
    rw [hs1, hw1] at h1
    simp only [Fin.ext_iff, hs0, hs1, hw0, hw1]
    show ((idx (ix2 p 0)).toInt + ((0 : Nat) : Int)).toNat = n.val ∧ ((0 : Int) + (q'.val : Int)).toNat = q.val ↔ _
    constructor
    · rintro ⟨a, b⟩; constructor <;> omega
    · rintro ⟨a, b⟩; constructor <;> omega
  · rename_i h
    constructor
    · intro hh; exact absurd hh (by simp)
    · rintro ⟨a, b⟩
      exfalso; apply h
      rw [Fin.forall_fin_two, hs0, hs1, hw0, hw1]
      have hn : n.val < N := n.isLt
      have hq : q'.val < D := q'.isLt
      refine ⟨⟨by omega, ?_⟩, ⟨by omega, ?_⟩⟩
      · show (idx (ix2 p 0)).toInt + ((0 : Nat) : Int) < (N : Int); omega
      · show (0 : Int) + (q'.val : Int) < (D : Int); omega

/-- The accumulating scatter of the rows of an [M × D] update into an [N × D] operand by an [M × 1] column of index
    words: entry (n, q) gains every update entry (p, q) whose word, read signed, is `n`. -/
theorem rowScatterAdd_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hivd : d.indexVectorDim = 1)
    (x : (⟨2, ![N, D]⟩ : Shape).Idx → EReal) (idx : IVec ⟨2, ![M, 1]⟩ w) (upd : (⟨2, ![M, D]⟩ : Shape).Idx → EReal)
    (n : Fin N) (q : Fin D) :
    Ideal.hostScatterAdd d x idx upd (ix2 n q)
      = x (ix2 n q) + ∑ p : Fin M, if (idx (ix2 p 0)).toInt = (n.val : Int) then upd (ix2 p q) else 0 := by
  obtain ⟨uw, iw, sd, ivd, wf⟩ := d
  subst huw hiw hsd hivd
  unfold Ideal.hostScatterAdd
  congr 1
  rw [Finset.sum_filter, sum_idx2]
  refine Finset.sum_congr rfl fun p _ => ?_
  rw [Finset.sum_congr rfl (fun b _ => if_congr (row_resultIdx_iff wf idx p b n q) rfl rfl)]
  by_cases hI : (idx (ix2 p 0)).toInt = (n.val : Int)
  · simp [hI]
  · simp [hI]

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {R : Type*} [AddCommMonoid R] {n : Nat} (f : (⟨1, ![n]⟩ : Shape).Idx → R) :
    ∑ i, f i = ∑ a : Fin n, f (ix1 a) := by
  rw [← Equiv.sum_comp (idxEquiv1 (n := n)).symm f]
  rfl

/-- Where update entry `p` of the vector scatter lands: the start on the operand's one axis is the index word of row
    `p` read signed, the window coordinate 0. So it lands at `n` exactly when the word is `n`. -/
theorem vec_resultIdx_iff {N M w : Nat}
    (wf : ScatterDims.WF ⟨1, ![N]⟩ ⟨2, ![M, 1]⟩ ⟨1, ![M]⟩ [] [0] [0] 1)
    (idx : IVec ⟨2, ![M, 1]⟩ w) (p : Fin M) (n : Fin N) :
    (⟨[], [0], [0], 1, wf⟩ : ScatterDims ⟨1, ![N]⟩ ⟨2, ![M, 1]⟩ ⟨1, ![M]⟩).resultIdx? (ix1 p) idx = some (ix1 n)
      ↔ (idx (ix2 p 0)).toInt = (n.val : Int) := by
  set d : ScatterDims ⟨1, ![N]⟩ ⟨2, ![M, 1]⟩ ⟨1, ![M]⟩ := ⟨[], [0], [0], 1, wf⟩ with hd
  have hs0 : d.start (ix1 p) idx 0 = (idx (ix2 p 0)).toInt := by
    unfold ScatterDims.start
    rw [dif_pos (show (0 : Fin 1) ∈ d.scatterDimsToOperandDims from List.mem_singleton.mpr rfl)]
    congr 2
    funext b; refine Fin.ext ?_
    match b with
    | ⟨0, _⟩ => rfl
    | ⟨1, _⟩ => rfl
  have hw0 : d.window (ix1 p) 0 = 0 := by
    unfold ScatterDims.window
    have hk : (0 : Fin 1) ∉ d.sKept := (by decide : (0 : Fin 1) ∉ (List.finRange 1).filter (· ∉ [(0 : Fin 1)]))
    rw [dif_neg hk]
  unfold ScatterDims.resultIdx?
  split
  · rename_i h
    rw [Option.some.injEq, funext_iff, Fin.forall_fin_one]
    have h0 := h 0
    rw [hs0, hw0] at h0
    simp only [Fin.ext_iff, hs0, hw0]
    show ((idx (ix2 p 0)).toInt + ((0 : Nat) : Int)).toNat = n.val ↔ _
    constructor
    · intro a; omega
    · intro a; omega
  · rename_i h
    constructor
    · intro hh; exact absurd hh (by simp)
    · intro a
      exfalso; apply h
      rw [Fin.forall_fin_one, hs0, hw0]
      have hn : n.val < N := n.isLt
      refine ⟨by omega, ?_⟩
      show (idx (ix2 p 0)).toInt + ((0 : Nat) : Int) < (N : Int); omega

/-- The same for a vector operand and a vector of updates. -/
theorem vecScatterAdd_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ p : Fin M, if (idx (ix2 p 0)).toInt = (n.val : Int) then upd (ix1 p) else 0 := by
  obtain ⟨uw, iw, sd, ivd, wf⟩ := d
  subst huw hiw hsd hivd
  unfold Ideal.hostScatterAdd
  congr 1
  rw [Finset.sum_filter, sum_idx1]
  exact Finset.sum_congr rfl fun p _ => if_congr (vec_resultIdx_iff wf idx p n) rfl rfl

/-- Two vectors laid end to end, read at a position: the first below its length, the second from there on. -/
theorem concat2_apply {α : Type} {A B : Nat} (a : (⟨1, ![A]⟩ : Shape).Idx → α) (b : (⟨1, ![B]⟩ : Shape).Idx → α)
    (h : Shape.Concatenates [(⟨1, ![A]⟩ : Shape), ⟨1, ![B]⟩] ⟨1, ![A + B]⟩ 0) (j : Fin (A + B)) :
    concatenate (⟨1, ![A + B]⟩ : Shape) 0 [⟨⟨1, ![A]⟩, a⟩, ⟨⟨1, ![B]⟩, b⟩] h (ix1 j)
      = if hj : j.val < A then a (ix1 ⟨j.val, hj⟩) else b (ix1 ⟨j.val - A, by omega⟩) := by
  split
  · rename_i hj
    exact concatenate_pair_apply_left 0 a b h (ix1 j) rfl (ix1 ⟨j.val, hj⟩) (fun c => by
      match c with
      | ⟨0, _⟩ => rfl)
  · rename_i hj
    exact concatenate_pair_apply_right 0 a b h (ix1 j) rfl rfl (ix1 ⟨j.val - A, by omega⟩)
      (fun c hc => absurd (Subsingleton.elim _ _) hc) (by show j.val - A + A = j.val; omega)

/-- The host's sum of an [N × D] array over its first axis, from the initial value `init`. -/
theorem colReduceAdd_apply {N D : Nat} (h' : (⟨2, ![N, D]⟩ : Shape).ReducesTo [0] ⟨1, ![D]⟩)
    (x : (⟨2, ![N, D]⟩ : Shape).Idx → EReal) (init : EReal) (q : Fin D) :
    Ideal.hostReduceAdd h' x init (ix1 q) = init + ∑ n : Fin N, x (ix2 n q) := by
  have h : (⟨2, ![N, D]⟩ : Shape).Reduces [0] ⟨1, ![D]⟩ := ⟨h'.1, Nat.one_pos, h'.2⟩
  rw [Ideal.hostReduceAdd_single h' h]
  show init + ∑ k : Fin N, x (h.lift (ix1 q) k) = _
  congr 1
  refine Finset.sum_congr rfl fun k _ => ?_
  congr 1
  funext c; refine Fin.ext ?_
  match c with
  | ⟨0, _⟩ => rfl
  | ⟨1, _⟩ => rfl

/-- The host's product of an [N × K] by a [K × D] array (contracting the first's axis 1 with the second's axis 0). -/
theorem dot_apply {N K D : Nat} (d : DotDims ⟨2, ![N, K]⟩ ⟨2, ![K, D]⟩ ⟨2, ![N, D]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![N, K]⟩ : Shape).Idx → EReal) (r : (⟨2, ![K, D]⟩ : Shape).Idx → EReal) (n : Fin N) (q : Fin D) :
    (∑ k : d.contr.Idx, l (d.lhsIdx (ix2 n q) k) * r (d.rhsIdx (ix2 n q) k)) = ∑ k : Fin K, l (ix2 n k) * r (ix2 k q) := by
  obtain ⟨lc, rc, ln, rn, lb, rb, wf⟩ := d
  subst hlc hrc hln hrn hlb hrb
  set d : DotDims ⟨2, ![N, K]⟩ ⟨2, ![K, D]⟩ ⟨2, ![N, D]⟩ := ⟨[1], [0], [0], [1], [], [], wf⟩ with hd
  have hr : d.contr.rank = 1 := rfl
  have hs : d.contr.size ⟨0, by omega⟩ = K := rfl
  rw [← Equiv.sum_comp (contrEquiv1 d K hr hs).symm]
  refine Finset.sum_congr rfl fun k _ => ?_
  have hl : d.lhsIdx (ix2 n q) ((contrEquiv1 d K hr hs).symm k) = ix2 n k := by
    funext a; refine Fin.ext ?_
    match a with
    | ⟨0, _⟩ => rfl
    | ⟨1, _⟩ => rfl
  have hr' : d.rhsIdx (ix2 n q) ((contrEquiv1 d K hr hs).symm k) = ix2 k q := by
    funext a; refine Fin.ext ?_
    match a with
    | ⟨0, _⟩ => rfl
    | ⟨1, _⟩ => rfl
  rw [hl, hr']

end Cert.HostRead

end
-- ==== Proof.RefRead.lean ====
/- The reference's result is the gathered rows.

   The reference computes each index value's row word, adds 1024 to a negative word (none is: the word is a number in
   0 … 1023), and gathers whole rows of the table by the column of words; a gather clamps its start into the table,
   which changes nothing for a row below 1024. -/
import proofs.«158060_j24515673325873_1_alg».proof.Proof.Gen.ReferenceIdeal.Read
import proofs.«158060_j24515673325873_1_alg».proof.Proof.Spec
import proofs.«158060_j24515673325873_1_alg».proof.Proof.LibHostRead

noncomputable section

namespace Cert.ReferenceIdeal.RefValue

open Cert.ReferenceIdeal Cert.ReferenceIdeal.Gen Cert.ReferenceIdeal.Read Idealize.ShloMosaic Idealize.ShloMosaic.ValueIdx
open Cert.Bucket Cert.Spec Cert.HostRead

/-- The integer word the reference computes for position i is the row word of the index value there. -/
theorem word_eq (x0 : Vec Ideal S1048576 .f32) (i : S1048576.Idx) : val_main_v6 (F := Ideal) x0 i = bucket (x0 i) := by
  rw [val_main_v6_apply, val_main_v5_apply, val_main_v3_apply, val_main_v2_apply, val_main_v0_apply,
    val_main_call0_v2_apply, val_main_call0_v4_apply, val_main_call0_v3_apply, val_main_cst_0_apply,
    val_main_call0_v1_apply, val_main_call0_v0_apply, val_main_cst_apply, val_main_v1_apply, val_main_cst_1_apply,
    val_main_v4_apply, val_main_cst_2_apply]
  rfl

/-- No word is negative, so the wrap-around of negative indices leaves every word as it is. -/
theorem wrapped_eq (x0 : Vec Ideal S1048576 .f32) (i : S1048576.Idx) : val_main_v11 (F := Ideal) x0 i = bucket (x0 i) := by
  rw [val_main_v11_apply, val_main_v8_apply, val_main_v7_apply, val_main_c_apply, word_eq]
  have hs : IntOp.cmpi .slt (bucket (x0 i)) 0#32 = 0#1 := by
    show BitVec.ofBool ((bucket (x0 i)).slt 0#32) = 0#1
    have : (bucket (x0 i)).slt 0#32 = false := by
      unfold BitVec.slt
      rw [bucket_toInt]
      simp
    rw [this]; rfl
  rw [hs, select_zero]

/-- The reference's result, stage by stage, is the gathered rows. -/
theorem result_eq (x0 : Vec Ideal S1048576 .f32) (x1 : Vec Ideal S1024x256 .f32) :
    val_main_v13 (F := Ideal) x0 x1 = gathered x0 x1 := by
  funext i
  obtain ⟨p, q, rfl⟩ : ∃ (p : Fin 1048576) (q : Fin 256), i = ix2 p q := ⟨i 0, i 1, eq_ix2 i⟩
  unfold val_main_v13
  rw [rowGather_apply _ rfl rfl rfl rfl rfl rfl _ _ p q (by norm_num), gathered_ix2]
  refine congrArg (fun r => x1 (ix2 r q)) (Fin.ext ?_)
  show min (val_main_v12 (F := Ideal) x0 (ix2 p 0)).toInt.toNat (1024 - 1) = (rowIx (x0 (ix1 p))).val
  rw [val_main_v12_apply, wrapped_eq]
  have e : idx_main_v12 (ix2 p (0 : Fin 1)) = ix1 p := by
    funext a; match a with | ⟨0, _⟩ => rfl
  rw [e, bucket_toInt]
  have := (rowIx (x0 (ix1 p))).isLt
  omega

end Cert.ReferenceIdeal.RefValue

end
-- ==== Proof.lean ====
/- The certificate: a gather of table rows computed as a product with one-hot columns equals the plain gather.

   Both programs turn each of the 1048576 index values into a row of the 1024-row table the same way (clamp to [0, 1],
   scale by 1024, round down, cap at 1023, convert to an integer); over the extended reals that row is a number in
   0 … 1023 for every value, so no input needs to be finite.  The reference gathers the rows.  The kernel, 64 rows of
   256 values at a time, multiplies the transposed one-hot array (entry (k, j) is 1 when k is value j's row) with the
   table on the matrix unit: the sum over k of [k = row] · table (k, q) is table (row, q), because 0 · a = 0 and
   1 · a = a for every extended real a.  The frames of the two kernel programs are the generated ones; the
   reference's frame is its generated run with the result dropped; no operation of the kernel was rewritten for the
   ideal reading, so there is nothing to preserve. -/
import proofs.«158060_j24515673325873_1_alg».proof.Defs
import proofs.«158060_j24515673325873_1_alg».proof.Proof.Gen.Kernel
import proofs.«158060_j24515673325873_1_alg».proof.Proof.Gen.Kernel.Skeleton
import proofs.«158060_j24515673325873_1_alg».proof.Proof.Gen.Kernel.Loops
import proofs.«158060_j24515673325873_1_alg».proof.Proof.Gen.Kernel.Launch
import proofs.«158060_j24515673325873_1_alg».proof.Proof.Gen.Kernel.Points
import proofs.«158060_j24515673325873_1_alg».proof.Proof.Gen.Kernel.Frame
import proofs.«158060_j24515673325873_1_alg».proof.Proof.Gen.KernelIdeal
import proofs.«158060_j24515673325873_1_alg».proof.Proof.Gen.KernelIdeal.Skeleton
import proofs.«158060_j24515673325873_1_alg».proof.Proof.Gen.KernelIdeal.Loops
import proofs.«158060_j24515673325873_1_alg».proof.Proof.Gen.KernelIdeal.Launch
import proofs.«158060_j24515673325873_1_alg».proof.Proof.Gen.KernelIdeal.Points
import proofs.«158060_j24515673325873_1_alg».proof.Proof.Gen.KernelIdeal.Frame
import proofs.«158060_j24515673325873_1_alg».proof.Proof.Gen.ReferenceIdeal
import proofs.«158060_j24515673325873_1_alg».proof.Proof.Gen.Pre_finite_inputs
import proofs.«158060_j24515673325873_1_alg».proof.Proof.Gen.ReferenceIdeal.Run
import proofs.«158060_j24515673325873_1_alg».proof.Proof.Gen.ReferenceIdeal.Read
import proofs.«158060_j24515673325873_1_alg».proof.Proof.KernelValue
import proofs.«158060_j24515673325873_1_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the gathered rows of their arguments, and the arguments agree. -/
theorem algebraic : Cert.algebraic_KernelIdeal_ReferenceIdeal := by
  intro m ρ m' ρ' _ hagree
  refine ⟨fun c => Cert.Spec.gathered (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
